-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S10000x128 .f32) (main_arg1 : FVec F S10000x10000 .f32) (main_arg2 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩
abbrev S128x128 : Shape := ⟨2, ![128, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  reduces_S400x10000_S400 : S400x10000.Reduces [1] S400
  shapeCasts_S400_S400x1 : S400.ShapeCasts S400x1
  broadcasts_S400x1_S400x128 : S400x1.Broadcasts S400x128
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  slices_S256x128_o0_0_S128x128 : S256x128.Slices ![0, 0] S128x128
  slices_S256x128_o128_0_S128x128 : S256x128.Slices ![128, 0] S128x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩
abbrev S10000 : Shape := ⟨1, ![10000]⟩
abbrev S10000x1 : Shape := ⟨2, ![10000, 1]⟩
abbrev S10000x256 : Shape := ⟨2, ![10000, 256]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x128, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S10000x128, .f32⟩
  | .hbm, ⟨12, _⟩ => ⟨S10000x128, .f32⟩
  | .hbm, ⟨13, _⟩ => ⟨S10000x256, .f32⟩
  | .hbm, ⟨14, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.KFrame.lean ====
/-
  The kernel's frame, first half: what one grid point does.

  The pipeline has five windows on a grid of 25 points. Windows 0 and 2 both stage the feature array x (window 0
  the whole of it, for the contraction; window 2 the point's own 400 rows), window 1 the point's 400 rows of adj,
  window 3 the whole of W, and window 4 is the output's 400 rows. The body loads the four input blocks whole and
  stores one value covering the output block, so after the body every input's staging buffer holds its block as it
  was and the output's holds that one value of the four blocks (`out0_4`).

  Because x stands behind two windows, the core cannot hold it whole for each: window 0 holds the left half of the
  full share and window 2 the right half (the proof data's `q`); reading needs no more than a share. The invariant
  carried from point to point is only the scoped buffers that are no staging buffer (there are none).
-/
import proofs.«115980_g26087631356317_cont_9to1_2094_2_alg».proof.Proof.Gen.Kernel.Launch
import proofs.«115980_g26087631356317_cont_9to1_2094_2_alg».proof.Proof.Gen.Kernel.Skeleton
import proofs.«115980_g26087631356317_cont_9to1_2094_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S256x128 := Rect.unit (s := S256x128) ![0, 0] S256x128.size inb_S256x128_S256x128_0_0
abbrev rO : Rect S400x128 := Rect.unit (s := S400x128) ![0, 0] S400x128.size inb_S400x128_S400x128_0_0

/-- The output window's staging buffer after the body, from the four input blocks (x whole, the adj rows, x's own
    rows, W): its one store as a piece covering the block. -/
def out0_4 (x0 : Vec F S10000x128 .f32) (x1 : Vec F S400x10000 .f32) (x2 : Vec F S400x128 .f32) (x3 : Vec F S256x128 .f32) : Vec F S400x128 .f32 :=
  View.canon [⟨rO, k0_pay1 (View.ld x1 rA) (View.ld x0 rX) (View.ld x3 rW) (View.ld x2 rO)⟩]

/-- The one store covers the block. -/
theorem cover0_4 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

/-- The body on whole staging memrefs: the inputs' kept, the output's left at `out0_4` of the inputs'. -/
theorem sound_kernel (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S10000x128 .f32) (x1 : Vec F S400x10000 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  -- raw contents: `fx` of x whole, `fa` of the adj rows, `fr` of x's own rows, `fw` of W, `fo` of the output block
  iintro ⟨⟨%fx, %hx, Hx⟩, ⟨%fa, %ha, Ha⟩, ⟨%fr, %hr, Hr⟩, ⟨%fw, %hw, Hw⟩, ⟨%o, %fo, -, Ho⟩, Hk⟩
  subst hx ha hr hw
  -- the four loads read the inputs' contents, the fifth the output's prior contents (unused); then the one store
  sl_exec
  sl_step
  iapply Hk
  isplitl [Hx]
  · iexists fx; isplitr; · ipureintro; rfl
    iexact Hx
  isplitl [Ha]
  · iexists fa; isplitr; · ipureintro; rfl
    iexact Ha
  isplitl [Hr]
  · iexists fr; isplitr; · ipureintro; rfl
    iexact Hr
  isplitl [Hw]
  · iexists fw; isplitr; · ipureintro; rfl
    iexact Hw
  -- the output: the one store over whatever was there reads as its canon, the store covering the block
  iexists _; isplitr
  swap; · iexact Ho
  ipureintro
  exact View.read_writes_eq_canon _ _ _ (cover0_4 _)

/-! ## The proof data -/

/-- The proof data of the pipeline on core `c`: the arrays as the region finds them; after the body each input's
    buffer at its block, the output's at `out0_4` of the blocks; the invariant the scoped rest; x's full share dealt
    to windows 0 and 2 by halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest spec0 c
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- What a fetch of an input window at a point puts in its buffer is the window's block there (no window is cut). -/
private theorem fetched0_0 (c : Dev nD) (t : Fin cfg0.N) (d) : (dats m 0 c).fetched 0 t d = iblk m c 0 t := by
  unfold Dat.fetched Dat.blockOf iblk; rw [A_eq]; try rfl
private theorem fetched0_1 (c : Dev nD) (t : Fin cfg0.N) (d) : (dats m 0 c).fetched 1 t d = iblk m c 1 t := by
  unfold Dat.fetched Dat.blockOf iblk; rw [A_eq]; try rfl
private theorem fetched0_2 (c : Dev nD) (t : Fin cfg0.N) (d) : (dats m 0 c).fetched 2 t d = iblk m c 2 t := by
  unfold Dat.fetched Dat.blockOf iblk; rw [A_eq]; try rfl
private theorem fetched0_3 (c : Dev nD) (t : Fin cfg0.N) (d) : (dats m 0 c).fetched 3 t d = iblk m c 3 t := by
  unfold Dat.fetched Dat.blockOf iblk; rw [A_eq]; try rfl

/-- The body leaves the whole of x and the whole of W in place: what it leaves in their buffers is their block. -/
private theorem kept0_0 (c : Dev nD) (t : Fin cfg0.N) :
    (cfg0.win 0).cut (cfg0.grid.coords t) ((dats m 0 c).after 0 t) = (dats m 0 c).blockOf 0 t := by
  rw [after0_0]; unfold Dat.blockOf iblk; rw [A_eq]; try rfl
private theorem kept0_3 (c : Dev nD) (t : Fin cfg0.N) :
    (cfg0.win 3).cut (cfg0.grid.coords t) ((dats m 0 c).after 3 t) = (dats m 0 c).blockOf 3 t := by
  rw [after0_3]; unfold Dat.blockOf iblk; rw [A_eq]; try rfl

/-- Each input's current staging buffer holds its block at every point. The adj rows and x's own rows (windows 1
    and 2) are fetched at every point, so the buffer holds what the fetch put there. The whole of x and the whole
    of W (windows 0 and 3) are fetched at the first point only; their block index never moves and the body leaves
    them in place, so at a later point the buffer still holds the block. -/
theorem before0_0 (c : Dev nD) (t : Fin cfg0.N) (d) : (dats m 0 c).before 0 t d = iblk m c 0 t :=
  ((dats m 0 c).before_in_eq_fetched 0 rfl (fun _ => rfl) (fun _ _ _ => rfl) (kept0_0 m c) t d).trans (fetched0_0 m c t d)
theorem before0_1 (c : Dev nD) (t : Fin cfg0.N) (d) : (dats m 0 c).before 1 t d = iblk m c 1 t :=
  ((dats m 0 c).before_fetched 1 t (fetch0_1 t) d).trans (fetched0_1 m c t d)
theorem before0_2 (c : Dev nD) (t : Fin cfg0.N) (d) : (dats m 0 c).before 2 t d = iblk m c 2 t :=
  ((dats m 0 c).before_fetched 2 t (fetch0_2 t) d).trans (fetched0_2 m c t d)
theorem before0_3 (c : Dev nD) (t : Fin cfg0.N) (d) : (dats m 0 c).before 3 t d = iblk m c 3 t :=
  ((dats m 0 c).before_in_eq_fetched 3 rfl (fun _ => rfl) (fun _ _ _ => rfl) (kept0_3 m c) t d).trans (fetched0_3 m c t d)

/-! ## The body obligation -/

/-- What the core holds when the body is called at point `t`: the invariant, what it owes, and each window's
    current staging buffer whole — the four inputs' at what they hold before the body, the output's likewise (its
    contents are nothing the body uses). -/
def heldAtCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it holds when the body returns: the same, each buffer at what the proof data says the body leaves there. -/
def heldAtReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. The four inputs' buffers hold their blocks (`before0_0` … `before0_3`), so the body's
    triple applies at the blocks; the invariant (the same at `t` and after it) and what the core owes pass through
    unread. -/
theorem body_at_point (c : Dev nD) (t : Fin cfg0.N) :
    heldAtCall m c t ⊢ wp frame (wpE (defs₀ (F := F)) Variants.none c none) Set.univ (bodyAt0 t) (fun _ => heldAtReturn m c t) := by
  unfold heldAtCall heldAtReturn bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨Hinv, Howes, ⟨%_, Hx⟩, ⟨%_, Ha⟩, ⟨%_, Hr⟩, ⟨%_, Hw⟩, ⟨%o, Hout⟩⟩
  iapply (sound_kernel c Set.univ (grid0.coords t) _ _ _ _ _ _ _ _ _ _
    (iblk m c 0 t) (iblk m c 1 t) (iblk m c 2 t) (iblk m c 3 t) _)
  isplitl [Hx]; · iexact Hx
  isplitl [Ha]; · iexact Ha
  isplitl [Hr]; · iexact Hr
  isplitl [Hw]; · iexact Hw
  isplitl [Hout]; · iexists _; iexact Hout
  iintro ⟨Hx, Ha, Hr, Hw, Hout⟩
  isplitl [Hinv]; · iexact Hinv
  isplitl [Howes]; · iexact Howes
  isplitl [Hx]; · iexact Hx
  isplitl [Ha]; · iexact Ha
  isplitl [Hr]; · iexact Hr
  isplitl [Hw]; · iexact Hw
  iexact Hout

/-- The library's body obligation, at every point: its two conjunctions over the five windows spelled out are
    `heldAtCall` and `heldAtReturn`. -/
theorem body_obligation (c : Dev nD) : BodyObligation (dats (F := F) m 0 c) (defs₀ (F := F)) Variants.none () Set.univ := fun t => by
  rw [bigSep_W0, bigSep_W0]
  exact body_at_point m c t

end Cert.Kernel.Hand

end
-- ==== Proof.KLaunch.lean ====
/-
  The kernel's frame, second half: the launch.

  The program is one region whose windows 0 and 2 stand on the same array x. At the region's entry the core holds
  each of the four distinct buffers behind the windows whole; x's full share is split into its two halves, one for
  each of the two windows that read it (`arrays_deal`), and the other three buffers go to their windows whole. No
  input window writes its array back, so after the 25 points every argument array is as it was, and the output
  array holds what the points wrote back.
-/
import proofs.«115980_g26087631356317_cont_9to1_2094_2_alg».proof.Proof.KFrame
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, at the share the proof data names. -/
theorem arrays_open (c : Dev nD) (G : (w : Fin cfg0.W) → Buf (Elt F) ((cfg0.win w).arr.view.loc (c.tc : Thread nD τ))) :
    (dats m 0 c).arrays G = bigSep Finset.univ fun w : Fin 5 =>
      (((c.tc : Thread nD τ).loc (Pipeline.arrRef spec0 w)) ↦{(dats m 0 c).share w} G w : sProp 𝕄) := by
  unfold Dat.arrays
  exact bigSep_congr fun w _ => by rw [(arr_whole0 w).set_eq_univ]

/-- Each window's share: the two halves for the two windows on x, the full share for the others. -/
theorem share0 (c : Dev nD) : (dats m 0 c).share 0 = fullShare.left := by unfold Dat.share; rfl
theorem share1 (c : Dev nD) : (dats m 0 c).share 1 = fullShare := by unfold Dat.share; rfl
theorem share2 (c : Dev nD) : (dats m 0 c).share 2 = fullShare.right := by unfold Dat.share; rfl
theorem share3 (c : Dev nD) : (dats m 0 c).share 3 = fullShare := by unfold Dat.share; rfl
theorem share4 (c : Dev nD) : (dats m 0 c).share 4 = fullShare := by unfold Dat.share; rfl

/-- The four buffers behind the five windows, each held whole at its entry contents, are the windows' arrays at
    their shares: x's full share is its left half (window 0) and its right half (window 2). -/
theorem arrays_deal (c : Dev nD) :
    (Pipeline.arrBufs spec0 c (V m c) : sProp 𝕄) ⊢ (dats m 0 c).arrays ((dats m 0 c).arrAt · 0) := by
  rw [arrays_open, bigSep_W0, share0, share1, share2, share3, share4]
  unfold Pipeline.arrBufs
  rw [bigSep_eq_bigSepL_of_eq [main_arg0, main_arg1, main_arg2, main_v0] (by decide) (by decide)]
  show iprop(_ ∗ _ ∗ _ ∗ _) ⊢ _
  rw [bigSepL_singleton]
  iintro ⟨H0, H1, H2, H3⟩
  ihave H0' := (pointsTo_share (PosShare.mem_left_op_right fullShare)).1 $$ H0
  icases H0' with ⟨H0l, H0r⟩
  isplitl [H0l]; · iexact H0l
  isplitl [H1]; · iexact H1
  isplitl [H0r]; · iexact H0r
  isplitl [H2]; · iexact H2
  iexact H3

-- the launch theorem's implicit arguments are found by unifying its conclusion with this one, which takes unfolding
-- plain definitions in a metavariable's type
set_option backward.isDefEq.respectTransparency.types false in
/-- Every weakly fair execution of the program terminates, and every window's array ends at what the pipeline's
    write-backs make of it: nothing is routed around the region, and the invariant is the scoped rest throughout. -/
theorem run_main : θ_run defs (onTc (τ := τ) (main (F := F))) ⟨m, fun _ => 0, ρ⟩ (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ (Pipeline.scopedRest spec0 c : sProp 𝕄)) ⊢ (Pipeline.scopedRest spec0 c : sProp 𝕄)
      iintro ⟨-, H⟩; iexact H)
    (hout := fun c => by
      show (Pipeline.scopedRest spec0 c : sProp 𝕄) ⊢ iprop(emp ∗ (Pipeline.scopedRest spec0 c : sProp 𝕄))
      iintro H; isplitr [H]; · iempintro
      iexact H)
    (QY := fun _ _ => True)
    (hY := fun c s' => by
      iintro ⟨-, -, HSI⟩
      imodintro
      isplitr; · ipureintro; trivial
      iexact HSI)
    (hQ := fun s h c w => (h c).1 w)

/-- The same run with the buffers named: the output array at the write-backs' result, the arguments unchanged. -/
theorem run_named : θ_run defs (onTc (τ := τ) (main (F := F))) ⟨m, fun _ => 0, ρ⟩ fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨h c 4,
      (h c 0).trans (((dats m 0 c).arrAt_in 0 rfl _).trans ((A_eq m c 0).trans (V_main_arg0 m c))),
      (h c 1).trans (((dats m 0 c).arrAt_in 1 rfl _).trans ((A_eq m c 1).trans (V_main_arg1 m c))),
      (h c 3).trans (((dats m 0 c).arrAt_in 3 rfl _).trans ((A_eq m c 3).trans (V_main_arg2 m c)))⟩)
    (run_main m ρ)

/-- The frame: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.Kernel.Hand

end
-- ==== Proof.KIFrame.lean ====
/-
  The kernel's frame, first half: what one grid point does.

  The pipeline has five windows on a grid of 25 points. Windows 0 and 2 both stage the feature array x (window 0
  the whole of it, for the contraction; window 2 the point's own 400 rows), window 1 the point's 400 rows of adj,
  window 3 the whole of W, and window 4 is the output's 400 rows. The body loads the four input blocks whole and
  stores one value covering the output block, so after the body every input's staging buffer holds its block as it
  was and the output's holds that one value of the four blocks (`out0_4`).

  Because x stands behind two windows, the core cannot hold it whole for each: window 0 holds the left half of the
  full share and window 2 the right half (the proof data's `q`); reading needs no more than a share. The invariant
  carried from point to point is only the scoped buffers that are no staging buffer (there are none).
-/
import proofs.«115980_g26087631356317_cont_9to1_2094_2_alg».proof.Proof.Gen.KernelIdeal.Launch
import proofs.«115980_g26087631356317_cont_9to1_2094_2_alg».proof.Proof.Gen.KernelIdeal.Skeleton
import proofs.«115980_g26087631356317_cont_9to1_2094_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and the windows' blocks -/

/-- Core `c`'s buffers when the region is entered: as launched (the program is the region alone). -/
abbrev V (c : Dev nD) (b : Ref sig .tc) : Buf (Elt F) ((c : Thread nD τ).loc b) := m ((c : Thread nD τ).loc b)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-- The program is its one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body stores -/

abbrev rX : Rect S10000x128 := Rect.unit (s := S10000x128) ![0, 0] S10000x128.size inb_S10000x128_S10000x128_0_0
abbrev rA : Rect S400x10000 := Rect.unit (s := S400x10000) ![0, 0] S400x10000.size inb_S400x10000_S400x10000_0_0
abbrev rW : Rect S256x128 := Rect.unit (s := S256x128) ![0, 0] S256x128.size inb_S256x128_S256x128_0_0
abbrev rO : Rect S400x128 := Rect.unit (s := S400x128) ![0, 0] S400x128.size inb_S400x128_S400x128_0_0

/-- The output window's staging buffer after the body, from the four input blocks (x whole, the adj rows, x's own
    rows, W): its one store as a piece covering the block. -/
def out0_4 (x0 : Vec F S10000x128 .f32) (x1 : Vec F S400x10000 .f32) (x2 : Vec F S400x128 .f32) (x3 : Vec F S256x128 .f32) : Vec F S400x128 .f32 :=
  View.canon [⟨rO, k0_pay1 (View.ld x1 rA) (View.ld x0 rX) (View.ld x3 rW) (View.ld x2 rO)⟩]

/-- The one store covers the block. -/
theorem cover0_4 (p0 : Vec F S400x128 .f32) (y : S400x128.Idx) :
    ∃ pc ∈ ([⟨rO, p0⟩] : List (View.Piece (Elt F) S400x128 .f32)), y ∈ pc.1.set :=
  View.cover_of_tiled [⟨rO, p0⟩] S400x128.size (by rfl) y

/-- The body on whole staging memrefs: the inputs' kept, the output's left at `out0_4` of the inputs'. -/
theorem sound_kernel (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (x0 : Vec F S10000x128 .f32) (x1 : Vec F S400x10000 .f32) (x2 : Vec F S400x128 .f32) (x3 : Vec F S256x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  unfold owns
  -- raw contents: `fx` of x whole, `fa` of the adj rows, `fr` of x's own rows, `fw` of W, `fo` of the output block
  iintro ⟨⟨%fx, %hx, Hx⟩, ⟨%fa, %ha, Ha⟩, ⟨%fr, %hr, Hr⟩, ⟨%fw, %hw, Hw⟩, ⟨%o, %fo, -, Ho⟩, Hk⟩
  subst hx ha hr hw
  -- the four loads read the inputs' contents, the fifth the output's prior contents (unused); then the one store
  sl_exec
  sl_step
  iapply Hk
  isplitl [Hx]
  · iexists fx; isplitr; · ipureintro; rfl
    iexact Hx
  isplitl [Ha]
  · iexists fa; isplitr; · ipureintro; rfl
    iexact Ha
  isplitl [Hr]
  · iexists fr; isplitr; · ipureintro; rfl
    iexact Hr
  isplitl [Hw]
  · iexists fw; isplitr; · ipureintro; rfl
    iexact Hw
  -- the output: the one store over whatever was there reads as its canon, the store covering the block
  iexists _; isplitr
  swap; · iexact Ho
  ipureintro
  exact View.read_writes_eq_canon _ _ _ (cover0_4 _)

/-! ## The proof data -/

/-- The proof data of the pipeline on core `c`: the arrays as the region finds them; after the body each input's
    buffer at its block, the output's at `out0_4` of the blocks; the invariant the scoped rest; x's full share dealt
    to windows 0 and 2 by halves; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest spec0 c
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

/-- What a fetch of an input window at a point puts in its buffer is the window's block there (no window is cut). -/
private theorem fetched0_0 (c : Dev nD) (t : Fin cfg0.N) (d) : (dats m 0 c).fetched 0 t d = iblk m c 0 t := by
  unfold Dat.fetched Dat.blockOf iblk; rw [A_eq]; try rfl
private theorem fetched0_1 (c : Dev nD) (t : Fin cfg0.N) (d) : (dats m 0 c).fetched 1 t d = iblk m c 1 t := by
  unfold Dat.fetched Dat.blockOf iblk; rw [A_eq]; try rfl
private theorem fetched0_2 (c : Dev nD) (t : Fin cfg0.N) (d) : (dats m 0 c).fetched 2 t d = iblk m c 2 t := by
  unfold Dat.fetched Dat.blockOf iblk; rw [A_eq]; try rfl
private theorem fetched0_3 (c : Dev nD) (t : Fin cfg0.N) (d) : (dats m 0 c).fetched 3 t d = iblk m c 3 t := by
  unfold Dat.fetched Dat.blockOf iblk; rw [A_eq]; try rfl

/-- The body leaves the whole of x and the whole of W in place: what it leaves in their buffers is their block. -/
private theorem kept0_0 (c : Dev nD) (t : Fin cfg0.N) :
    (cfg0.win 0).cut (cfg0.grid.coords t) ((dats m 0 c).after 0 t) = (dats m 0 c).blockOf 0 t := by
  rw [after0_0]; unfold Dat.blockOf iblk; rw [A_eq]; try rfl
private theorem kept0_3 (c : Dev nD) (t : Fin cfg0.N) :
    (cfg0.win 3).cut (cfg0.grid.coords t) ((dats m 0 c).after 3 t) = (dats m 0 c).blockOf 3 t := by
  rw [after0_3]; unfold Dat.blockOf iblk; rw [A_eq]; try rfl

/-- Each input's current staging buffer holds its block at every point. The adj rows and x's own rows (windows 1
    and 2) are fetched at every point, so the buffer holds what the fetch put there. The whole of x and the whole
    of W (windows 0 and 3) are fetched at the first point only; their block index never moves and the body leaves
    them in place, so at a later point the buffer still holds the block. -/
theorem before0_0 (c : Dev nD) (t : Fin cfg0.N) (d) : (dats m 0 c).before 0 t d = iblk m c 0 t :=
  ((dats m 0 c).before_in_eq_fetched 0 rfl (fun _ => rfl) (fun _ _ _ => rfl) (kept0_0 m c) t d).trans (fetched0_0 m c t d)
theorem before0_1 (c : Dev nD) (t : Fin cfg0.N) (d) : (dats m 0 c).before 1 t d = iblk m c 1 t :=
  ((dats m 0 c).before_fetched 1 t (fetch0_1 t) d).trans (fetched0_1 m c t d)
theorem before0_2 (c : Dev nD) (t : Fin cfg0.N) (d) : (dats m 0 c).before 2 t d = iblk m c 2 t :=
  ((dats m 0 c).before_fetched 2 t (fetch0_2 t) d).trans (fetched0_2 m c t d)
theorem before0_3 (c : Dev nD) (t : Fin cfg0.N) (d) : (dats m 0 c).before 3 t d = iblk m c 3 t :=
  ((dats m 0 c).before_in_eq_fetched 3 rfl (fun _ => rfl) (fun _ _ _ => rfl) (kept0_3 m c) t d).trans (fetched0_3 m c t d)

/-! ## The body obligation -/

/-- What the core holds when the body is called at point `t`: the invariant, what it owes, and each window's
    current staging buffer whole — the four inputs' at what they hold before the body, the output's likewise (its
    contents are nothing the body uses). -/
def heldAtCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it holds when the body returns: the same, each buffer at what the proof data says the body leaves there. -/
def heldAtReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. The four inputs' buffers hold their blocks (`before0_0` … `before0_3`), so the body's
    triple applies at the blocks; the invariant (the same at `t` and after it) and what the core owes pass through
    unread. -/
theorem body_at_point (c : Dev nD) (t : Fin cfg0.N) :
    heldAtCall m c t ⊢ wp frame (wpE (defs₀ (F := F)) Variants.none c none) Set.univ (bodyAt0 t) (fun _ => heldAtReturn m c t) := by
  unfold heldAtCall heldAtReturn bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨Hinv, Howes, ⟨%_, Hx⟩, ⟨%_, Ha⟩, ⟨%_, Hr⟩, ⟨%_, Hw⟩, ⟨%o, Hout⟩⟩
  iapply (sound_kernel c Set.univ (grid0.coords t) _ _ _ _ _ _ _ _ _ _
    (iblk m c 0 t) (iblk m c 1 t) (iblk m c 2 t) (iblk m c 3 t) _)
  isplitl [Hx]; · iexact Hx
  isplitl [Ha]; · iexact Ha
  isplitl [Hr]; · iexact Hr
  isplitl [Hw]; · iexact Hw
  isplitl [Hout]; · iexists _; iexact Hout
  iintro ⟨Hx, Ha, Hr, Hw, Hout⟩
  isplitl [Hinv]; · iexact Hinv
  isplitl [Howes]; · iexact Howes
  isplitl [Hx]; · iexact Hx
  isplitl [Ha]; · iexact Ha
  isplitl [Hr]; · iexact Hr
  isplitl [Hw]; · iexact Hw
  iexact Hout

/-- The library's body obligation, at every point: its two conjunctions over the five windows spelled out are
    `heldAtCall` and `heldAtReturn`. -/
theorem body_obligation (c : Dev nD) : BodyObligation (dats (F := F) m 0 c) (defs₀ (F := F)) Variants.none () Set.univ := fun t => by
  rw [bigSep_W0, bigSep_W0]
  exact body_at_point m c t

end Cert.KernelIdeal.Hand

end
-- ==== Proof.KILaunch.lean ====
/-
  The kernel's frame, second half: the launch.

  The program is one region whose windows 0 and 2 stand on the same array x. At the region's entry the core holds
  each of the four distinct buffers behind the windows whole; x's full share is split into its two halves, one for
  each of the two windows that read it (`arrays_deal`), and the other three buffers go to their windows whole. No
  input window writes its array back, so after the 25 points every argument array is as it was, and the output
  array holds what the points wrote back.
-/
import proofs.«115980_g26087631356317_cont_9to1_2094_2_alg».proof.Proof.KIFrame
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays, each a whole buffer, at the share the proof data names. -/
theorem arrays_open (c : Dev nD) (G : (w : Fin cfg0.W) → Buf (Elt F) ((cfg0.win w).arr.view.loc (c.tc : Thread nD τ))) :
    (dats m 0 c).arrays G = bigSep Finset.univ fun w : Fin 5 =>
      (((c.tc : Thread nD τ).loc (Pipeline.arrRef spec0 w)) ↦{(dats m 0 c).share w} G w : sProp 𝕄) := by
  unfold Dat.arrays
  exact bigSep_congr fun w _ => by rw [(arr_whole0 w).set_eq_univ]

/-- Each window's share: the two halves for the two windows on x, the full share for the others. -/
theorem share0 (c : Dev nD) : (dats m 0 c).share 0 = fullShare.left := by unfold Dat.share; rfl
theorem share1 (c : Dev nD) : (dats m 0 c).share 1 = fullShare := by unfold Dat.share; rfl
theorem share2 (c : Dev nD) : (dats m 0 c).share 2 = fullShare.right := by unfold Dat.share; rfl
theorem share3 (c : Dev nD) : (dats m 0 c).share 3 = fullShare := by unfold Dat.share; rfl
theorem share4 (c : Dev nD) : (dats m 0 c).share 4 = fullShare := by unfold Dat.share; rfl

/-- The four buffers behind the five windows, each held whole at its entry contents, are the windows' arrays at
    their shares: x's full share is its left half (window 0) and its right half (window 2). -/
theorem arrays_deal (c : Dev nD) :
    (Pipeline.arrBufs spec0 c (V m c) : sProp 𝕄) ⊢ (dats m 0 c).arrays ((dats m 0 c).arrAt · 0) := by
  rw [arrays_open, bigSep_W0, share0, share1, share2, share3, share4]
  unfold Pipeline.arrBufs
  rw [bigSep_eq_bigSepL_of_eq [main_arg0, main_arg1, main_arg2, main_v0] (by decide) (by decide)]
  show iprop(_ ∗ _ ∗ _ ∗ _) ⊢ _
  rw [bigSepL_singleton]
  iintro ⟨H0, H1, H2, H3⟩
  ihave H0' := (pointsTo_share (PosShare.mem_left_op_right fullShare)).1 $$ H0
  icases H0' with ⟨H0l, H0r⟩
  isplitl [H0l]; · iexact H0l
  isplitl [H1]; · iexact H1
  isplitl [H0r]; · iexact H0r
  isplitl [H2]; · iexact H2
  iexact H3

-- the launch theorem's implicit arguments are found by unifying its conclusion with this one, which takes unfolding
-- plain definitions in a metavariable's type
set_option backward.isDefEq.respectTransparency.types false in
/-- Every weakly fair execution of the program terminates, and every window's array ends at what the pipeline's
    write-backs make of it: nothing is routed around the region, and the invariant is the scoped rest throughout. -/
theorem run_main : θ_run defs (onTc (τ := τ) (main (F := F))) ⟨m, fun _ => 0, ρ⟩ (fun r => ∀ c : Dev nD, ∀ w : Fin cfg0.W,
      r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_deal m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ (Pipeline.scopedRest spec0 c : sProp 𝕄)) ⊢ (Pipeline.scopedRest spec0 c : sProp 𝕄)
      iintro ⟨-, H⟩; iexact H)
    (hout := fun c => by
      show (Pipeline.scopedRest spec0 c : sProp 𝕄) ⊢ iprop(emp ∗ (Pipeline.scopedRest spec0 c : sProp 𝕄))
      iintro H; isplitr [H]; · iempintro
      iexact H)
    (QY := fun _ _ => True)
    (hY := fun c s' => by
      iintro ⟨-, -, HSI⟩
      imodintro
      isplitr; · ipureintro; trivial
      iexact HSI)
    (hQ := fun s h c w => (h c).1 w)

/-- The same run with the buffers named: the output array at the write-backs' result, the arguments unchanged. -/
theorem run_named : θ_run defs (onTc (τ := τ) (main (F := F))) ⟨m, fun _ => 0, ρ⟩ fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨h c 4,
      (h c 0).trans (((dats m 0 c).arrAt_in 0 rfl _).trans ((A_eq m c 0).trans (V_main_arg0 m c))),
      (h c 1).trans (((dats m 0 c).arrAt_in 1 rfl _).trans ((A_eq m c 1).trans (V_main_arg1 m c))),
      (h c 3).trans (((dats m 0 c).arrAt_in 3 rfl _).trans ((A_eq m c 3).trans (V_main_arg2 m c)))⟩)
    (run_main m ρ)

/-- The frame: the program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

end Cert.KernelIdeal.Hand

end
-- ==== Proof.Spec.lean ====
/-
  The layer this certificate is about, as one function of its three arrays.

  For a node r, with x the [10000, 128] features, adj the [10000, 10000] weights and W the [256, 128] projection:
  the degree is the sum of row r of adj, clipped below at the constant eps; the aggregate is row r of adj times x,
  divided entry by entry by the clipped degree; the output row is x's own row r times the upper half of W plus the
  aggregate times the lower half of W. Everything is read on the extended reals; no step below moves a factor
  across a sum or cancels, so nothing here asks the entries to be finite.

  `entry` is written over ONE row of x and ONE row of adj (the two things a block of rows carries), so that the
  same definition serves a row block and the whole array.
-/
import Idealize.ShloMosaic.PureOps.Ideal
import Idealize.ShloMosaic.PureOps.Ideal.Laws
import Idealize.ShloMosaic.Lib.ValueIdx
import Mathlib.Algebra.BigOperators.Fin

noncomputable section

namespace Cert.Sage

open Idealize.ShloMosaic Idealize.ShloMosaic.ValueIdx

abbrev SX : Shape := ⟨2, ![10000, 128]⟩
abbrev SA : Shape := ⟨2, ![10000, 10000]⟩
abbrev SW : Shape := ⟨2, ![256, 128]⟩

/-- The floor under the degree: the float32 word both programs print for `1e-6`, kept as a word. -/
abbrev eps : EReal := Ideal.ofBits .f32 0x358637BD#32

/-- Row k of the upper half of W is row k of W. -/
abbrev lo (k : Fin 128) : Fin 256 := ⟨k.val, by omega⟩
/-- Row k of the lower half of W is row 128 + k of W. -/
abbrev hi (k : Fin 128) : Fin 256 := ⟨128 + k.val, by omega⟩

/-- Entry k of the aggregate of one node: its row of adj times column k of x, over its clipped degree. -/
def agg (ar : Fin 10000 → EReal) (x : SX.Idx → EReal) (k : Fin 128) : EReal :=
  Ideal.div (∑ l : Fin 10000, ar l * x (ix2 l k)) (max eps (∑ l : Fin 10000, ar l))

/-- Entry q of the output row of one node, from its own row `xr` of x and its row `ar` of adj. -/
def entry (xr : Fin 128 → EReal) (ar : Fin 10000 → EReal) (x : SX.Idx → EReal) (W : SW.Idx → EReal) (q : Fin 128) : EReal :=
  (∑ k : Fin 128, xr k * W (ix2 (lo k) q)) + ∑ k : Fin 128, agg ar x k * W (ix2 (hi k) q)

/-- The whole output array. -/
def G (x : SX.Idx → EReal) (adj : SA.Idx → EReal) (W : SW.Idx → EReal) : SX.Idx → EReal :=
  fun i => entry (fun k => x (ix2 (i 0) k)) (fun l => adj (ix2 (i 0) l)) x W (i 1)

/-- A sum over the 256 rows of W is the sum over its upper 128 plus the sum over its lower 128: the terms are the
    same, only grouped, so this holds in any commutative monoid. -/
theorem sum_halves {M : Type*} [AddCommMonoid M] (f : Fin 256 → M) :
    ∑ k : Fin 256, f k = (∑ k : Fin 128, f (lo k)) + ∑ k : Fin 128, f (hi k) := by
  show ∑ k : Fin (128 + 128), f k = _
  rw [Fin.sum_univ_add]
  rfl

end Cert.Sage

end
-- ==== Proof.LibRowOps.lean ====
/-
  Rows of a matrix, read at an index given by coordinates.

  A row-wise normalisation (a softmax, a layer norm) reduces each row of an [a, b] matrix to one number, keeps it as
  a column [a, 1], and broadcasts the column back over the row. Read at (p, c) each of these steps looks at one
  element of its operand, or at the b elements of row p:
  • the views [a, b] ↔ [a, 1, b] and [a] → [a, 1] move no element (the row-major position is unchanged because the
    inserted axis has extent one);
  • a column [a, 1] broadcast to [a, b] reads, at (p, c), the column's entry p;
  • a reduction over axis 1 reads, at p, the b entries (p, 0) … (p, b − 1): their sum, or their maximum folded from the
    initial value.
  The second part is the order fact a row maximum needs: folding max from an initial value gives a result at
  least that value, so taking the maximum with the initial value once more changes nothing.
-/
import Idealize.ShloMosaic.Lib.ValueLayout
import Idealize.ShloMosaic.Lib.ValueIdx
import Idealize.ShloMosaic.PureOps.Ideal.Laws

noncomputable section

namespace RowOps

open Idealize.ShloMosaic Idealize.ShloMosaic.ValueIdx

variable {α : Type}

/-! ## Views that insert or drop a unit axis in the middle or at the end -/

/-- An `[a, b]` array viewed as `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array viewed as `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a]` array viewed as the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## A column broadcast over its rows -/

/-- An `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Over result index `p` of a reduction of `[a, b]` along axis 1, the source index with `k` inserted is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

variable {φ : FTy}

/-- The sum along a row, at the ideal values: entry `p` is the sum of the row's `b` entries. -/
theorem multiReduction_add_row {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- The maximum along a row, at the ideal values: entry `p` is `max` folded from the accumulator's value over the
    row's `b` entries. -/
theorem multiReduction_max_row {a b : ℕ} (v : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (Finset.univ.fold max _) (funext fun k => congrArg v (lift_row h p k))

/-- The host's one-operand reduction with a `max` body along a row: the same fold, from the initial value's element. -/
theorem hostReduce_max_row {a b : ℕ} {u : Shape} (v : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf v init h' hu (ix1 p)
      = (Finset.univ : Finset (Fin b)).fold max (init (Shape.Idx.first hu)) (fun k => v (ix2 p k)) := by
  rw [Host.reduce_eq_fold_single FloatOps.maximumf v init h' h hu]
  exact congrArg (Finset.univ.fold max _) (funext fun k => congrArg v (lift_row h p k))

/-! ## The maximum with the initial value, once more -/

/-- A fold of `max` from `c` is at least `c`, so its maximum with `c` is the fold itself. -/
theorem max_fold_max_self {ι β : Type*} [LinearOrder β] (s : Finset ι) (c : β) (f : ι → β) :
    max c (s.fold max c f) = s.fold max c f :=
  max_eq_right ((Finset.le_fold_max c).mpr (Or.inl le_rfl))

end RowOps

end
-- ==== Proof.KIPayload.lean ====
/-
  What the body stores, entry by entry, on the extended reals.

  With a = the 400 rows of adj, xf = the whole of x, xi = x's own 400 rows and w = the whole of W, entry (p, q) of
  the stored value is  sum_k xi(p,k) * w(k,q)  +  sum_k (sum_l a(p,l) * xf(l,k) / max(eps, sum_l a(p,l))) * w(128+k,q):
  each matrix product into a zero accumulator is the plain sum, the row sum kept as a column and broadcast back
  reads the row's sum at every column, and the two slices of w are its upper and lower 128 rows.
-/
import proofs.«115980_g26087631356317_cont_9to1_2094_2_alg».proof.Proof.Gen.KernelIdeal.Skeleton
import proofs.«115980_g26087631356317_cont_9to1_2094_2_alg».proof.Proof.Spec
import proofs.«115980_g26087631356317_cont_9to1_2094_2_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen
open Idealize.ShloMosaic Idealize.ShloMosaic.ValueIdx

/-! ## The two matrix products into a zero accumulator

Each reads, at (p, k), the sum over the one contracted axis of the left operand's row p times the right operand's
column k: the left index at a contraction position l is (p, l), the right one (l, k). -/

private theorem lhs_big_0 (i : S400x128.Idx) (c : dot_S400x10000_S10000x128_S400x128_1_0_0_1_n_n.contr.Idx) :
    (dot_S400x10000_S10000x128_S400x128_1_0_0_1_n_n.lhsIdx i c 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
private theorem lhs_big_1 (i : S400x128.Idx) (c : dot_S400x10000_S10000x128_S400x128_1_0_0_1_n_n.contr.Idx) :
    (dot_S400x10000_S10000x128_S400x128_1_0_0_1_n_n.lhsIdx i c 1).val = (c ⟨0, by decide⟩).val :=
  dot_S400x10000_S10000x128_S400x128_1_0_0_1_n_n.lhsIdx_val_of_single rfl i c
private theorem rhs_big_0 (i : S400x128.Idx) (c : dot_S400x10000_S10000x128_S400x128_1_0_0_1_n_n.contr.Idx) :
    (dot_S400x10000_S10000x128_S400x128_1_0_0_1_n_n.rhsIdx i c 0).val = (c ⟨0, by decide⟩).val :=
  dot_S400x10000_S10000x128_S400x128_1_0_0_1_n_n.rhsIdx_val_of_single rfl i c
private theorem rhs_big_1 (i : S400x128.Idx) (c : dot_S400x10000_S10000x128_S400x128_1_0_0_1_n_n.contr.Idx) :
    (dot_S400x10000_S10000x128_S400x128_1_0_0_1_n_n.rhsIdx i c 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The [400, 10000] by [10000, 128] product at (p, k) is the sum over the 10000 contracted positions. -/
private theorem matmul_big_apply (a : FVec Ideal S400x10000 .f32) (b : FVec Ideal S10000x128 .f32) (p : Fin 400) (k : Fin 128) :
    matmul dot_S400x10000_S10000x128_S400x128_1_0_0_1_n_n none a b (constant (F := Ideal) S400x128 .f32 0x00000000#32) (ix2 p k)
      = ∑ l : Fin 10000, a (ix2 p l) * b (ix2 l k) := by
  refine (Ideal.matmul_constant_zero_apply dot_S400x10000_S10000x128_S400x128_1_0_0_1_n_n none a b (ix2 p k)).trans ?_
  rw [← Equiv.sum_comp (ValueIdx.contrEquiv1 dot_S400x10000_S10000x128_S400x128_1_0_0_1_n_n 10000 rfl rfl).symm]
  refine Finset.sum_congr rfl fun l _ => ?_
  have hk := ValueIdx.contrEquiv1_symm_val dot_S400x10000_S10000x128_S400x128_1_0_0_1_n_n 10000 rfl rfl l
  have el : dot_S400x10000_S10000x128_S400x128_1_0_0_1_n_n.lhsIdx (ix2 p k) ((ValueIdx.contrEquiv1 dot_S400x10000_S10000x128_S400x128_1_0_0_1_n_n 10000 rfl rfl).symm l) = ix2 p l := funext fun x => Fin.ext (by
    match x with
    | ⟨0, _⟩ => exact lhs_big_0 _ _
    | ⟨1, _⟩ => exact (lhs_big_1 _ _).trans hk)
  have er : dot_S400x10000_S10000x128_S400x128_1_0_0_1_n_n.rhsIdx (ix2 p k) ((ValueIdx.contrEquiv1 dot_S400x10000_S10000x128_S400x128_1_0_0_1_n_n 10000 rfl rfl).symm l) = ix2 l k := funext fun x => Fin.ext (by
    match x with
    | ⟨0, _⟩ => exact (rhs_big_0 _ _).trans hk
    | ⟨1, _⟩ => exact rhs_big_1 _ _)
  rw [el, er]

private theorem lhs_small_0 (i : S400x128.Idx) (c : dot_S400x128_S128x128_S400x128_1_0_0_1_n_n.contr.Idx) :
    (dot_S400x128_S128x128_S400x128_1_0_0_1_n_n.lhsIdx i c 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
private theorem lhs_small_1 (i : S400x128.Idx) (c : dot_S400x128_S128x128_S400x128_1_0_0_1_n_n.contr.Idx) :
    (dot_S400x128_S128x128_S400x128_1_0_0_1_n_n.lhsIdx i c 1).val = (c ⟨0, by decide⟩).val :=
  dot_S400x128_S128x128_S400x128_1_0_0_1_n_n.lhsIdx_val_of_single rfl i c
private theorem rhs_small_0 (i : S400x128.Idx) (c : dot_S400x128_S128x128_S400x128_1_0_0_1_n_n.contr.Idx) :
    (dot_S400x128_S128x128_S400x128_1_0_0_1_n_n.rhsIdx i c 0).val = (c ⟨0, by decide⟩).val :=
  dot_S400x128_S128x128_S400x128_1_0_0_1_n_n.rhsIdx_val_of_single rfl i c
private theorem rhs_small_1 (i : S400x128.Idx) (c : dot_S400x128_S128x128_S400x128_1_0_0_1_n_n.contr.Idx) :
    (dot_S400x128_S128x128_S400x128_1_0_0_1_n_n.rhsIdx i c 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- The [400, 128] by [128, 128] product at (p, k) is the sum over the 128 contracted positions. -/
private theorem matmul_small_apply (a : FVec Ideal S400x128 .f32) (b : FVec Ideal S128x128 .f32) (p : Fin 400) (k : Fin 128) :
    matmul dot_S400x128_S128x128_S400x128_1_0_0_1_n_n none a b (constant (F := Ideal) S400x128 .f32 0x00000000#32) (ix2 p k)
      = ∑ l : Fin 128, a (ix2 p l) * b (ix2 l k) := by
  refine (Ideal.matmul_constant_zero_apply dot_S400x128_S128x128_S400x128_1_0_0_1_n_n none a b (ix2 p k)).trans ?_
  rw [← Equiv.sum_comp (ValueIdx.contrEquiv1 dot_S400x128_S128x128_S400x128_1_0_0_1_n_n 128 rfl rfl).symm]
  refine Finset.sum_congr rfl fun l _ => ?_
  have hk := ValueIdx.contrEquiv1_symm_val dot_S400x128_S128x128_S400x128_1_0_0_1_n_n 128 rfl rfl l
  have el : dot_S400x128_S128x128_S400x128_1_0_0_1_n_n.lhsIdx (ix2 p k) ((ValueIdx.contrEquiv1 dot_S400x128_S128x128_S400x128_1_0_0_1_n_n 128 rfl rfl).symm l) = ix2 p l := funext fun x => Fin.ext (by
    match x with
    | ⟨0, _⟩ => exact lhs_small_0 _ _
    | ⟨1, _⟩ => exact (lhs_small_1 _ _).trans hk)
  have er : dot_S400x128_S128x128_S400x128_1_0_0_1_n_n.rhsIdx (ix2 p k) ((ValueIdx.contrEquiv1 dot_S400x128_S128x128_S400x128_1_0_0_1_n_n 128 rfl rfl).symm l) = ix2 l k := funext fun x => Fin.ext (by
    match x with
    | ⟨0, _⟩ => exact (rhs_small_0 _ _).trans hk
    | ⟨1, _⟩ => exact rhs_small_1 _ _)
  rw [el, er]

/-! ## The two halves of w -/

/-- Row k of the slice of w at offset 0 is row k of w. -/
private theorem slice_lo_apply (w : Vec Ideal S256x128 .f32) (k q : Fin 128) :
    extractStridedSlice S128x128 ![0, 0] w slices_S256x128_o0_0_S128x128 (ix2 k q) = w (ix2 (Cert.Sage.lo k) q) :=
  extractStridedSlice_apply ![0, 0] w slices_S256x128_o0_0_S128x128 (ix2 k q) (ix2 (Cert.Sage.lo k) q) (fun a => match a with
    | ⟨0, _⟩ => by show k.val = 0 + k.val; omega
    | ⟨1, _⟩ => by show q.val = 0 + q.val; omega)

/-- Row k of the slice of w at offset 128 is row 128 + k of w. -/
private theorem slice_hi_apply (w : Vec Ideal S256x128 .f32) (k q : Fin 128) :
    extractStridedSlice S128x128 ![128, 0] w slices_S256x128_o128_0_S128x128 (ix2 k q) = w (ix2 (Cert.Sage.hi k) q) :=
  extractStridedSlice_apply ![128, 0] w slices_S256x128_o128_0_S128x128 (ix2 k q) (ix2 (Cert.Sage.hi k) q) (fun a => match a with
    | ⟨0, _⟩ => by show 128 + k.val = 128 + k.val; rfl
    | ⟨1, _⟩ => by show q.val = 0 + q.val; omega)

/-! ## The divisor: the row sum kept as a column, bounded below by eps, broadcast over the row -/

/-- At (p, k) the divisor is the maximum of eps and the sum of row p of a, whatever the column k. -/
private theorem divisor_apply (a : FVec Ideal S400x10000 .f32) (p : Fin 400) (k : Fin 128) :
    broadcastTo S400x128
        (maximumf (broadcast S400x1 (Scalar.ofBits (F := Ideal) .f32 0x358637BD#32))
          (shapeCast S400x1 (multiReduction (F := Ideal) .add [1] S400 a 0x00000000#32 reduces_S400x10000_S400 (.inl rfl) rfl)
            shapeCasts_S400_S400x1))
        broadcasts_S400x1_S400x128 (ix2 p k)
      = max Cert.Sage.eps (∑ l : Fin 10000, a (ix2 p l)) := by
  refine (RowOps.broadcastTo_a1_ab_apply _ broadcasts_S400x1_S400x128 p k).trans ?_
  refine (maximumf_apply _ _ _).trans ?_
  refine congrArg (max Cert.Sage.eps) ?_
  refine (RowOps.shapeCast_a_a1_apply _ shapeCasts_S400_S400x1 p (0 : Fin 1)).trans ?_
  exact RowOps.multiReduction_add_row a 0x00000000#32 reduces_S400x10000_S400 (.inl rfl) rfl p

/-! ## The stored value at an index -/

/-- Entry (p, q) of the value the body stores is `Sage.entry` of row p of the block of x's own rows and row p of
    the block of adj, with the whole of x and of W. -/
theorem pay_apply (v0 : Vec Ideal S400x10000 .f32) (v1 : Vec Ideal S10000x128 .f32) (v9 : Vec Ideal S256x128 .f32)
    (v10 : Vec Ideal S400x128 .f32) (p : Fin 400) (q : Fin 128) :
    k0_pay1 (F := Ideal) v0 v1 v9 v10 (ix2 p q)
      = Cert.Sage.entry (fun k => v10 (ix2 p k)) (fun l => v0 (ix2 p l)) v1 v9 q := by
  unfold k0_pay1
  refine (addf_apply _ _ (ix2 p q)).trans ?_
  unfold Cert.Sage.entry
  refine congrArg₂ (· + ·) ?_ ?_
  · refine (matmul_small_apply _ _ p q).trans ?_
    exact Finset.sum_congr rfl fun k _ => congrArg (v10 (ix2 p k) * ·) (slice_lo_apply v9 k q)
  · refine (matmul_small_apply _ _ p q).trans ?_
    refine Finset.sum_congr rfl fun k _ => congrArg₂ (· * ·) ?_ (slice_hi_apply v9 k q)
    refine (divf_apply _ _ (ix2 p k)).trans ?_
    unfold Cert.Sage.agg
    exact congrArg₂ Ideal.div (matmul_big_apply v0 v1 p k) (divisor_apply v0 p k)

end Cert.KernelIdeal.HandValue

end
-- ==== Proof.KIValue.lean ====
/-
  From the blocks to the array.

  Point t of the grid writes back rows 400 t … 400 t + 399 of the output. The four input blocks it reads are: x
  whole, rows 400 t … of adj, rows 400 t … of x, W whole. So what it writes is those rows of `Sage.G` of the three
  argument arrays; the 25 blocks cover the 10000 rows, hence the output array after the run is `Sage.G`.
-/
import proofs.«115980_g26087631356317_cont_9to1_2094_2_alg».proof.Proof.KILaunch
import proofs.«115980_g26087631356317_cont_9to1_2094_2_alg».proof.Proof.KIPayload
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

private theorem hz4 : (![0, 0] : Fin 2 → Nat) = fun _ => 0 := funext fun a => by fin_cases a <;> rfl

/-- The printed index maps, decided over the grid: the whole-array windows (x, W) sit at block (0, 0) at every point;
    the row-block windows (adj, x's own rows, the output) sit at block (t, 0) at point t. -/
private theorem idx_facts4 : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One entry. When the four blocks hold: x whole, W whole, row p of the adj block = row r of adj, row p of the block
    of x's own rows = row r of x, then entry (p, q) of what the body stores is entry (r, q) of `Sage.G`. -/
private theorem entry_at_point (x : Vec Ideal S10000x128 .f32) (adj : Vec Ideal S10000x10000 .f32) (W : Vec Ideal S256x128 .f32)
    (v0 : Vec Ideal S400x10000 .f32) (v1 : Vec Ideal S10000x128 .f32) (v9 : Vec Ideal S256x128 .f32) (v10 : Vec Ideal S400x128 .f32)
    (p : Fin 400) (q : Fin 128) (r : Fin 10000)
    (h1 : v1 = x) (h9 : v9 = W)
    (h0 : ∀ l : Fin 10000, v0 (ix2 p l) = adj (ix2 r l))
    (h10 : ∀ k : Fin 128, v10 (ix2 p k) = x (ix2 r k)) :
    k0_pay1 (F := Ideal) v0 v1 v9 v10 (ix2 p q) = Cert.Sage.G x adj W (ix2 r q) := by
  rw [pay_apply, h1, h9]
  show Cert.Sage.entry _ _ x W q = Cert.Sage.entry (fun k => x (ix2 r k)) (fun l => adj (ix2 r l)) x W q
  rw [show (fun k => v10 (ix2 p k)) = fun k => x (ix2 r k) from funext h10,
    show (fun l => v0 (ix2 p l)) = fun l => adj (ix2 r l) from funext h0]

/-- What point `t` writes back is block `t` of `Sage.G` of the argument arrays. -/
theorem flushed4_eq (c : Dev nD) (t : Fin cfg0.N) :
    (dats m 0 c).flushed 4 t = ((cfg0.win 4).blk t).view.read (Elt Ideal)
      (Cert.Sage.G (m ((c.tc : Thread nD τ).loc main_arg0)) (m ((c.tc : Thread nD τ).loc main_arg1)) (m ((c.tc : Thread nD τ).loc main_arg2))) := by
  show (cfg0.win 4).cut (grid0.coords t) ((dats m 0 c).after 4 t) = _
  rw [after0_4]
  unfold out0_4
  rw [View.canon_unit_zero hz4]
  simp only [View.ld_unit_zero (S := S10000x128) hz4, View.ld_unit_zero (S := S400x10000) hz4, View.ld_unit_zero (S := S256x128) hz4, View.ld_unit_zero (S := S400x128) hz4]
  funext j
  obtain ⟨e00, e01, e10, e11, e20, e21, e30, e31, e40, e41⟩ := idx_facts4 t
  have hN : t.val < 25 := lt_of_lt_of_eq t.isLt (show cfg0.N = 25 from N_0)
  have hp : (j 0).val < 400 := (j 0).isLt
  have hq : (j 1).val < 128 := (j 1).isLt
  have hj : j = ix2 (n0 := 400) (n1 := 128) (j 0) (j 1) := eq_ix2 (n0 := 400) (n1 := 128) j
  have hi : ((cfg0.win 4).blk t).view.emb j = ix2 (n0 := 10000) (n1 := 128) ⟨t.val * 400 + (j 0).val, by omega⟩ (j 1) := by
    funext a; apply Fin.ext
    match a with
    | ⟨0, _⟩ => show win0_4.index t (0 : Fin 2) * 400 + 1 * (j 0).val = t.val * 400 + (j 0).val; omega
    | ⟨1, _⟩ => show win0_4.index t (1 : Fin 2) * 128 + 1 * (j 1).val = (j 1).val; omega
  show k0_pay1 (F := Ideal) (iblk m c 1 t) (iblk m c 0 t) (iblk m c 3 t) (iblk m c 2 t) j
    = Cert.Sage.G (V m c main_arg0) (V m c main_arg1) (V m c main_arg2) (((cfg0.win 4).blk t).view.emb j)
  rw [hi]
  refine (congrArg (k0_pay1 (F := Ideal) (iblk m c 1 t) (iblk m c 0 t) (iblk m c 3 t) (iblk m c 2 t)) hj).trans ?_
  refine entry_at_point (V m c main_arg0) (V m c main_arg1) (V m c main_arg2) (iblk m c 1 t) (iblk m c 0 t) (iblk m c 3 t) (iblk m c 2 t)
    (j 0) (j 1) ⟨t.val * 400 + (j 0).val, by omega⟩ ?_ ?_ ?_ ?_
  · funext y
    show V m c main_arg0 (((cfg0.win 0).blk t).view.emb y) = V m c main_arg0 y
    refine congrArg (V m c main_arg0) ?_
    funext a; apply Fin.ext
    match a with
    | ⟨0, _⟩ => show win0_0.index t (0 : Fin 2) * 10000 + 1 * (y 0).val = (y 0).val; omega
    | ⟨1, _⟩ => show win0_0.index t (1 : Fin 2) * 128 + 1 * (y 1).val = (y 1).val; omega
  · funext y
    show V m c main_arg2 (((cfg0.win 3).blk t).view.emb y) = V m c main_arg2 y
    refine congrArg (V m c main_arg2) ?_
    funext a; apply Fin.ext
    match a with
    | ⟨0, _⟩ => show win0_3.index t (0 : Fin 2) * 256 + 1 * (y 0).val = (y 0).val; omega
    | ⟨1, _⟩ => show win0_3.index t (1 : Fin 2) * 128 + 1 * (y 1).val = (y 1).val; omega
  · intro l
    show V m c main_arg1 (((cfg0.win 1).blk t).view.emb (ix2 (n0 := 400) (n1 := 10000) (j 0) l)) = V m c main_arg1 _
    refine congrArg (V m c main_arg1) ?_
    funext a; apply Fin.ext
    match a with
    | ⟨0, _⟩ => show win0_1.index t (0 : Fin 2) * 400 + 1 * (j 0).val = t.val * 400 + (j 0).val; omega
    | ⟨1, _⟩ => show win0_1.index t (1 : Fin 2) * 10000 + 1 * l.val = l.val; omega
  · intro k
    show V m c main_arg0 (((cfg0.win 2).blk t).view.emb (ix2 (n0 := 400) (n1 := 128) (j 0) k)) = V m c main_arg0 _
    refine congrArg (V m c main_arg0) ?_
    funext a; apply Fin.ext
    match a with
    | ⟨0, _⟩ => show win0_2.index t (0 : Fin 2) * 400 + 1 * (j 0).val = t.val * 400 + (j 0).val; omega
    | ⟨1, _⟩ => show win0_2.index t (1 : Fin 2) * 128 + 1 * k.val = k.val; omega

/-- An index of the output array is in point `t`'s block iff each coordinate is in the block's range on its axis. -/
private theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every index of the output array lies in the block of a point that writes back. -/
theorem covered4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 25 := N_0
  obtain ⟨t, ht⟩ : ∃ t : Fin cfg0.N, t.val = (i 0).val / 400 := ⟨⟨(i 0).val / 400, by rw [hN]; omega⟩, rfl⟩
  obtain ⟨-, -, -, -, -, -, -, -, e40, e41⟩ := idx_facts4 t
  refine ⟨t, flush0_4 t, ?_⟩
  rw [mem_blk4]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- The output array after the run is `Sage.G` of the argument arrays. -/
theorem final4 (c : Dev nD) :
    (dats m 0 c).arrAt 4 cfg0.N
      = Cert.Sage.G (m ((c.tc : Thread nD τ).loc main_arg0)) (m ((c.tc : Thread nD τ).loc main_arg1)) (m ((c.tc : Thread nD τ).loc main_arg2)) := by
  exact (dats m 0 c).arrAt_eq_of_cover 4
    (Cert.Sage.G (m ((c.tc : Thread nD τ).loc main_arg0)) (m ((c.tc : Thread nD τ).loc main_arg1)) (m ((c.tc : Thread nD τ).loc main_arg2)))
    (fun t _ => flushed4_eq m c t) covered4

/-- The run, read: the result at `Sage.G` of the arguments, the arguments unchanged. -/
theorem run : θ_run defs (onTc (τ := τ) (main (F := Ideal))) ⟨m, fun _ => 0, ρ⟩ fun r => ∀ c : Dev nD,
      r.2.mem ((c.tc : Thread nD τ).loc main_v0)
        = Cert.Sage.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (final4 m c), (h c).2⟩) (run_named m ρ)

end Cert.KernelIdeal.HandValue

end
-- ==== Proof.RefValue.lean ====
/-
  The reference computes `Sage.G`.

  Read stage by stage: the product of the concatenation [x | agg] with W is a sum over the 256 rows of W; its
  first 128 terms take x's entries and its last 128 the aggregate's, which is the split of `Sage.entry`. The
  aggregate is the quotient of adj times x by the degree clipped below at eps, and the degree is the zero word
  plus the row's sum, that is, the row's sum.
-/
import proofs.«115980_g26087631356317_cont_9to1_2094_2_alg».proof.Proof.Gen.ReferenceIdeal.Read
import proofs.«115980_g26087631356317_cont_9to1_2094_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- An index built by cases on the axis is the index of its two coordinates. -/
private theorem idx_eq {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- The concatenation [x | agg] at a column of the first half is x there. -/
private theorem v6_lo (x0 : (⟨S10000x128, .f32⟩ : BufTy).Contents (Elt Ideal)) (x1 : (⟨S10000x10000, .f32⟩ : BufTy).Contents (Elt Ideal))
    (r : Fin 10000) (q k : Fin 128) :
    val_main_v6 (F := Ideal) x0 x1 (lidx_main_v7 (ix2 r q) (Cert.Sage.lo k)) = x0 (ix2 r k) := by
  unfold val_main_v6
  exact concatenate_pair_apply_left (t := S10000x256) (1 : Fin 2) x0 (val_main_v5 (F := Ideal) x0 x1)
    concatenates_S10000x128_S10000x128_S10000x256_d1 _ rfl (ix2 r k)
    (fun b => by match b with | ⟨0, _⟩ => rfl | ⟨1, _⟩ => rfl)

/-- The concatenation [x | agg] at a column of the second half is the aggregate at that column less 128. -/
private theorem v6_hi (x0 : (⟨S10000x128, .f32⟩ : BufTy).Contents (Elt Ideal)) (x1 : (⟨S10000x10000, .f32⟩ : BufTy).Contents (Elt Ideal))
    (r : Fin 10000) (q k : Fin 128) :
    val_main_v6 (F := Ideal) x0 x1 (lidx_main_v7 (ix2 r q) (Cert.Sage.hi k)) = val_main_v5 (F := Ideal) x0 x1 (ix2 r k) := by
  unfold val_main_v6
  exact concatenate_pair_apply_right (t := S10000x256) (1 : Fin 2) x0 (val_main_v5 (F := Ideal) x0 x1)
    concatenates_S10000x128_S10000x128_S10000x256_d1 _ rfl rfl (ix2 r k)
    (fun b hb => by match b with | ⟨0, _⟩ => rfl | ⟨1, _⟩ => exact absurd rfl hb)
    (by show k.val + 128 = 128 + k.val; omega)

/-- The clipped degree of row r: the larger of eps and the row's sum (the zero word adds nothing). -/
private theorem v4_eq (x1 : (⟨S10000x10000, .f32⟩ : BufTy).Contents (Elt Ideal)) (r : Fin 10000) (k : Fin 128) :
    val_main_v4 (F := Ideal) x1 (ix2 r k) = max Cert.Sage.eps (∑ l : Fin 10000, x1 (ix2 r l)) := by
  rw [val_main_v4_apply, val_main_v3_apply, val_main_call0_v1_apply, val_main_call0_v0_apply, val_main_cst_0_apply,
    val_main_v1_apply, val_main_v0_apply, val_main_cst_apply]
  rw [Ideal.maximumf_def, Ideal.ofBits_def, Ideal.ofBits_def, Ideal.ofBits_zero_f32, zero_add]
  refine congrArg (max _) (Finset.sum_congr rfl fun l _ => ?_)
  exact congrArg x1 (idx_eq _ r l rfl rfl)

/-- Row r of adj times column k of x. -/
private theorem v2_eq (x0 : (⟨S10000x128, .f32⟩ : BufTy).Contents (Elt Ideal)) (x1 : (⟨S10000x10000, .f32⟩ : BufTy).Contents (Elt Ideal))
    (r : Fin 10000) (k : Fin 128) :
    val_main_v2 (F := Ideal) x0 x1 (ix2 r k) = ∑ l : Fin 10000, x1 (ix2 r l) * x0 (ix2 l k) := by
  rw [val_main_v2_apply]
  refine Finset.sum_congr rfl fun l _ => ?_
  rw [idx_eq (lidx_main_v2 (ix2 r k) l) r l rfl rfl, idx_eq (ridx_main_v2 (ix2 r k) l) l k rfl rfl]

/-- The quotient stage is the aggregate of row r. -/
private theorem v5_eq (x0 : (⟨S10000x128, .f32⟩ : BufTy).Contents (Elt Ideal)) (x1 : (⟨S10000x10000, .f32⟩ : BufTy).Contents (Elt Ideal))
    (r : Fin 10000) (k : Fin 128) :
    val_main_v5 (F := Ideal) x0 x1 (ix2 r k) = Cert.Sage.agg (fun l => x1 (ix2 r l)) x0 k := by
  rw [val_main_v5_apply, Ideal.hostDivf_def, v2_eq, v4_eq]
  rfl

/-- The reference's last stage, as a function of the three argument arrays, is `Sage.G`. -/
theorem ref_eq (x0 : (⟨S10000x128, .f32⟩ : BufTy).Contents (Elt Ideal)) (x1 : (⟨S10000x10000, .f32⟩ : BufTy).Contents (Elt Ideal))
    (x2 : (⟨S256x128, .f32⟩ : BufTy).Contents (Elt Ideal)) :
    val_main_v7 (F := Ideal) x0 x1 x2 = Cert.Sage.G x0 x1 x2 := by
  funext i
  obtain ⟨r, q, rfl⟩ : ∃ (r : Fin 10000) (q : Fin 128), i = ix2 r q := ⟨i 0, i 1, eq_ix2 i⟩
  rw [val_main_v7_apply, Cert.Sage.sum_halves]
  show _ = Cert.Sage.entry (fun k => x0 (ix2 r k)) (fun l => x1 (ix2 r l)) x0 x2 q
  unfold Cert.Sage.entry
  congr 1
  · refine Finset.sum_congr rfl fun k _ => ?_
    rw [v6_lo, idx_eq (ridx_main_v7 (ix2 r q) (Cert.Sage.lo k)) (Cert.Sage.lo k) q rfl rfl]
  · refine Finset.sum_congr rfl fun k _ => ?_
    rw [v6_hi, v5_eq, idx_eq (ridx_main_v7 (ix2 r q) (Cert.Sage.hi k)) (Cert.Sage.hi k) q rfl rfl]

end Cert.ReferenceIdeal.RefValue

end
-- ==== Proof.lean ====
/-
  The certificate of a graph-convolution layer with mean aggregation.

  The kernel computes, for each block of 400 nodes, the block's rows of adj times x and the rows' sums from the same
  resident block, divides the one by the other clipped below at eps, and adds the node's own features times the
  upper half of W to the aggregate times the lower half of W. The reference concatenates x with the aggregate and
  multiplies by W once. Over the extended reals the two agree entry by entry: the product with the concatenation is
  a sum over the 256 rows of W, and grouping its first 128 and last 128 terms gives the kernel's two products. Only
  commutativity and associativity of the sum are used, so the finiteness of the inputs is never opened.

  The three frames: each kernel program by its own run (x stands behind two of the pipeline's input windows, each
  holding half of its share; no input window writes back), the reference by its run with the result dropped. The
  idealization rewrote nothing, so what it must preserve is trivially true.
-/
import proofs.«115980_g26087631356317_cont_9to1_2094_2_alg».proof.Defs
import proofs.«115980_g26087631356317_cont_9to1_2094_2_alg».proof.Proof.Gen.Kernel
import proofs.«115980_g26087631356317_cont_9to1_2094_2_alg».proof.Proof.Gen.KernelIdeal
import proofs.«115980_g26087631356317_cont_9to1_2094_2_alg».proof.Proof.Gen.ReferenceIdeal
import proofs.«115980_g26087631356317_cont_9to1_2094_2_alg».proof.Proof.Gen.ReferenceIdeal.Run
import proofs.«115980_g26087631356317_cont_9to1_2094_2_alg».proof.Proof.Gen.ReferenceIdeal.Read
import proofs.«115980_g26087631356317_cont_9to1_2094_2_alg».proof.Proof.Gen.Pre_finite_inputs
import proofs.«115980_g26087631356317_cont_9to1_2094_2_alg».proof.Proof.KLaunch
import proofs.«115980_g26087631356317_cont_9to1_2094_2_alg».proof.Proof.KIValue
import proofs.«115980_g26087631356317_cont_9to1_2094_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel's result array ends at the layer's function of the arguments, and so does the reference's, from
    arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
